-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x4096 .f32) (main_arg5 : FVec F S4096x256 .f32) (main_arg6 : FVec F S4096 .f32) (main_arg7 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x4096 .f32) (main_arg2 : FVec F S4096x4096 .f32) (main_arg3 : FVec F S4096x4096 .f32) (main_arg4 : FVec F S4096x4096 .f32) (main_arg5 : FVec F S4096x256 .f32) (main_arg6 : FVec F S4096 .f32) (main_arg7 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x256 : Shape := ⟨2, ![4096, 256]⟩
abbrev S4096x4096 : Shape := ⟨2, ![4096, 4096]⟩
abbrev S4096 : Shape := ⟨1, ![4096]⟩
abbrev S1x4096 : Shape := ⟨2, ![1, 4096]⟩
abbrev S512x256 : Shape := ⟨2, ![512, 256]⟩
abbrev S1x512 : Shape := ⟨2, ![1, 512]⟩
abbrev S512x512 : Shape := ⟨2, ![512, 512]⟩
abbrev S256x512 : Shape := ⟨2, ![256, 512]⟩

abbrev nBuf : Space → Nat
  | .hbm => 14
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x256, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S4096_S1x4096 : S4096.ShapeCasts S1x4096
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  broadcasts_S1x512_S512x512 : S1x512.Broadcasts S512x512
  natLt_1_32 : 1 < 32
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .f32 = 32 ∨ (Rect.block (s := S4096x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .f32 = 32 ∨ (Rect.block (s := S4096x4096) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x4096.size a
  hwx0_11 : ∀ i : grid0.Coords, EltTy.bits .f32 = 32 ∨ (Rect.block (s := S4096x4096) S512x512.size (cc0_transform_11 i) (hinb0_11 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_2) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_3) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096 : Shape := ⟨1, ![4096]⟩
abbrev S256x4096 : Shape := ⟨2, ![256, 4096]⟩
abbrev S_ : Shape := ⟨0, ![]⟩
abbrev S1x4096 : Shape := ⟨2, ![1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x256, .f32⟩
  | .hbm, ⟨6, _⟩ => ⟨S4096, .f32⟩
  | .hbm, ⟨7, _⟩ => ⟨S4096, .f32⟩
  | .hbm, ⟨8, _⟩ => ⟨S256x4096, .f32⟩
  | .hbm, ⟨9, _⟩ => ⟨S4096x4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .i1⟩
  | .hbm, ⟨74, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Spec.lean ====
/-
  The resonate-and-fire cell's update, as functions on the extended reals.

  For a batch row `p` and a neuron `n`, with drive `s = ∑ₖ x[p,k] · W[n,k]`, angular frequency `ω = |omega[n]|`,
  offset `β = |b_offset[n]|`, and the state entries `z, u, v, q` at `(p, n)`:

    boundary  = (−1 + √(1 − (δ·ω)²)) / δ − β                (the divergence boundary, less the offset)
    damp      = exp ((boundary − q − q) · δ)
    u'        = damp · (u · cos (ω·δ) − v · sin (ω·δ)) + s · δ
    v'        = damp · (u · sin (ω·δ) + v · cos (ω·δ))
    q'        = γ · q + z
    z'        = 1 if u' − 1 − q' > 0, else 0

  where `δ` and `γ` are the values the single-precision words for 0.01 and 0.9 denote. Both programs spell the
  same words, so the words are never evaluated; only the word for 2 is, in the one law that differs between the two
  sides: subtracting `2 · q` once is subtracting `q` twice, on every extended real.
-/
import Idealize.ShloMosaic.PureOps.Ideal
import Idealize.ShloMosaic.Lib.ValueIdx

noncomputable section

namespace Cert.Brf

open Idealize.ShloMosaic Idealize.ShloMosaic.ValueIdx

/-- An ideal single-precision value: an extended real. -/
abbrev R : Type := Ideal .f32

/-- The time step `δ`: what the word for 0.01 denotes. -/
abbrev dt : R := Ideal.ofBits .f32 0x3C23D70A#32
/-- What the word for 1 denotes. -/
abbrev one : R := Ideal.ofBits .f32 0x3F800000#32
/-- What the word for −1 denotes. -/
abbrev negOne : R := Ideal.ofBits .f32 0xBF800000#32
/-- The adaptation decay `γ`: what the word for 0.9 denotes. -/
abbrev decay : R := Ideal.ofBits .f32 0x3F666666#32
/-- What the zero word denotes. -/
abbrev zero : R := Ideal.ofBits .f32 0x00000000#32
/-- What the word for 2 denotes. -/
abbrev two : R := Ideal.ofBits .f32 0x40000000#32

/-- The magnitude `|x| = max x (−x)`. -/
abbrev mag (x : R) : R := FloatOps.absf (F := Ideal) x

/-- The divergence boundary of frequency `om`, less the offset `bo`. -/
def boundary (om bo : R) : R :=
  Ideal.div (negOne + Ideal.sqrt (one - (dt * mag om) * (dt * mag om))) dt - mag bo

/-- The damping factor over one step, the adaptation `q` subtracted twice. -/
def damp (om bo q : R) : R := Ideal.exp ((boundary om bo - q - q) * dt)

/-- The next real part: the damped rotation of `(u, v)` plus the drive `s` over one step. -/
def uNext (s om bo q u v : R) : R :=
  damp om bo q * (u * Ideal.cos (mag om * dt) - v * Ideal.sin (mag om * dt)) + s * dt

/-- The next imaginary part. -/
def vNext (om bo q u v : R) : R :=
  damp om bo q * (u * Ideal.sin (mag om * dt) + v * Ideal.cos (mag om * dt))

/-- The next adaptation. -/
def qNext (q z : R) : R := decay * q + z

/-- The spike: one where the next real part exceeds the threshold one plus the next adaptation. -/
def spike (s om bo q u v z : R) : R :=
  FloatOps.uitofp (F := Ideal) .f32 (Ideal.cmp .ogt (uNext s om bo q u v - one - qNext q z) zero)

/-! ## The arrays -/

/-- The drive of neuron `i 1` by batch row `i 0`: the row of `x` against the row of `W`. -/
def drive (x W : (⟨2, ![4096, 256]⟩ : Shape).Idx → R) (i : (⟨2, ![4096, 4096]⟩ : Shape).Idx) : R :=
  ∑ k : Fin 256, x (ix2 (i 0) k) * W (ix2 (i 1) k)

/-- The next real part, entry by entry. -/
def Gu (x W : (⟨2, ![4096, 256]⟩ : Shape).Idx → R) (om bo : (⟨1, ![4096]⟩ : Shape).Idx → R)
    (Q U V : (⟨2, ![4096, 4096]⟩ : Shape).Idx → R) : (⟨2, ![4096, 4096]⟩ : Shape).Idx → R :=
  fun i => uNext (drive x W i) (om (ix1 (i 1))) (bo (ix1 (i 1))) (Q i) (U i) (V i)

/-- The next imaginary part, entry by entry. -/
def Gv (om bo : (⟨1, ![4096]⟩ : Shape).Idx → R)
    (Q U V : (⟨2, ![4096, 4096]⟩ : Shape).Idx → R) : (⟨2, ![4096, 4096]⟩ : Shape).Idx → R :=
  fun i => vNext (om (ix1 (i 1))) (bo (ix1 (i 1))) (Q i) (U i) (V i)

/-- The next adaptation, entry by entry. -/
def Gq (Q Z : (⟨2, ![4096, 4096]⟩ : Shape).Idx → R) : (⟨2, ![4096, 4096]⟩ : Shape).Idx → R :=
  fun i => qNext (Q i) (Z i)

/-- The spikes, entry by entry. -/
def Gz (x W : (⟨2, ![4096, 256]⟩ : Shape).Idx → R) (om bo : (⟨1, ![4096]⟩ : Shape).Idx → R)
    (Q U V Z : (⟨2, ![4096, 4096]⟩ : Shape).Idx → R) : (⟨2, ![4096, 4096]⟩ : Shape).Idx → R :=
  fun i => spike (drive x W i) (om (ix1 (i 1))) (bo (ix1 (i 1))) (Q i) (U i) (V i) (Z i)

/-! ## The two laws -/

/-- The word for 2 denotes the real number 2. -/
theorem two_eq : two = ((2 : ℝ) : EReal) := by
  simp [two, Ideal.ofBits, Ideal.ieee, -EReal.coe_mul]; norm_num

/-- Twice an extended real is the real added to itself: at an infinity both are that infinity. -/
theorem two_mul_self (q : EReal) : ((2 : ℝ) : EReal) * q = q + q := by
  induction q using EReal.rec with
  | bot => rw [EReal.coe_mul_bot_of_pos (by norm_num)]; rfl
  | coe r => rw [← EReal.coe_mul, ← EReal.coe_add]; congr 1; ring
  | top => rw [EReal.coe_mul_top_of_pos (by norm_num)]; rfl

/-- Subtracting `2 · q` once is subtracting `q` twice, for every extended real `a` and `q`, the infinities included:
    the negative of `q + q` is `−q − q` because `q` is not both infinities at once. -/
theorem sub_two_mul (a q : EReal) : a - two * q = a - q - q := by
  rw [two_eq, two_mul_self, sub_eq_add_neg, sub_eq_add_neg, sub_eq_add_neg, add_assoc]
  congr 1
  induction q using EReal.rec with
  | bot => rfl
  | coe r => rw [← EReal.coe_add, ← EReal.coe_neg, ← EReal.coe_neg, ← EReal.coe_add]; congr 1; ring
  | top => rfl

/-- A one-bit word widened to 32 bits and read as a signed integer is the bit read as an unsigned one: zero or one
    either way. -/
theorem sitofp_widen_eq_uitofp (b : BitVec 1) :
    FloatOps.sitofp (F := Ideal) .f32 (b.setWidth 32) = FloatOps.uitofp (F := Ideal) .f32 b := by
  show (((b.setWidth 32).toInt : ℝ) : EReal) = ((b.toNat : ℝ) : EReal)
  rcases b with ⟨⟨v, hv⟩⟩
  have h : v = 0 ∨ v = 1 := by
    have : v < 2 := hv
    omega
  rcases h with rfl | rfl <;> simp

end Cert.Brf

end
-- ==== Proof.RefValue.lean ====
/-
  The reference's four results, read one operation at a time, are the cell's update entry by entry.

  Every stage of the reference reads its operands at the same entry, except the broadcasts of the per-neuron
  vectors (entry `(p, n)` reads neuron `n`) and the product `x · Wᵀ` (entry `(p, n)` is the sum over `k` of
  `x[p, k] · W[n, k]`). With those indices named, the reference's terms are the specification's, operation for
  operation: the host's square root, exponential, cosine, sine, quotient and magnitude are the same functions of
  an extended real as the ones the specification is written with.
-/
import proofs.«164185_j2499670966836_1_alg».proof.Proof.Gen.ReferenceIdeal.Read
import proofs.«164185_j2499670966836_1_alg».proof.Proof.Spec

noncomputable section

namespace Cert.Brf.Ref

open Idealize.ShloMosaic Idealize.ShloMosaic.ValueIdx Cert.ReferenceIdeal Cert.ReferenceIdeal.Read Cert.Brf

/-! ## Which entry each broadcast and the product read -/

/-- The boundary vector, broadcast over the batch, is read at the neuron. -/
theorem neuron_boundary (i : S4096x4096.Idx) : idx_main_v15 (idx_main_v16 i) = ix1 (i 1) := by
  funext a; match a with | ⟨0, _⟩ => rfl

/-- The cosine vector, in the real part. -/
theorem neuron_cos_u (i : S4096x4096.Idx) : idx_main_v28 (idx_main_v29 i) = ix1 (i 1) := by
  funext a; match a with | ⟨0, _⟩ => rfl

/-- The sine vector, in the real part. -/
theorem neuron_sin_u (i : S4096x4096.Idx) : idx_main_v31 (idx_main_v32 i) = ix1 (i 1) := by
  funext a; match a with | ⟨0, _⟩ => rfl

/-- The sine vector, in the imaginary part. -/
theorem neuron_sin_v (i : S4096x4096.Idx) : idx_main_v39 (idx_main_v40 i) = ix1 (i 1) := by
  funext a; match a with | ⟨0, _⟩ => rfl

/-- The cosine vector, in the imaginary part. -/
theorem neuron_cos_v (i : S4096x4096.Idx) : idx_main_v42 (idx_main_v43 i) = ix1 (i 1) := by
  funext a; match a with | ⟨0, _⟩ => rfl

/-- The product's left factor at position `k` is `x[p, k]`. -/
theorem drive_left (i : S4096x4096.Idx) (k : Fin 256) : lidx_main_v1 i k = ix2 (i 0) k := by
  funext a; match a with | ⟨0, _⟩ => rfl | ⟨1, _⟩ => rfl

/-- Its right factor, through the transpose, is `W[n, k]`. -/
theorem drive_right (i : S4096x4096.Idx) (k : Fin 256) : idx_main_v0 (ridx_main_v1 i k) = ix2 (i 1) k := by
  funext a; match a with | ⟨0, _⟩ => rfl | ⟨1, _⟩ => rfl

/-! ## The four results -/

/-- The reference's next real part is `Gu`. -/
theorem real_part (x0 : (⟨S4096x256, .f32⟩ : BufTy).Contents (Elt Ideal)) (x2 x3 x4 : (⟨S4096x4096, .f32⟩ : BufTy).Contents (Elt Ideal)) (x5 : (⟨S4096x256, .f32⟩ : BufTy).Contents (Elt Ideal)) (x6 x7 : (⟨S4096, .f32⟩ : BufTy).Contents (Elt Ideal)) :
    val_main_v38 (F := Ideal) x0 x2 x3 x4 x5 x6 x7 = Gu x0 x5 x6 x7 x4 x2 x3 := by
  funext i
  simp only [val_main_v0_apply, val_main_v1_apply, val_main_v2_apply, val_main_cst_apply, val_main_v3_apply, val_main_v4_apply, val_main_v5_apply, val_main_cst_0_apply, val_main_v6_apply, val_main_v7_apply, val_main_v8_apply, val_main_cst_1_apply, val_main_v9_apply, val_main_v10_apply, val_main_cst_2_apply, val_main_v11_apply, val_main_v12_apply, val_main_v13_apply, val_main_v14_apply, val_main_v15_apply, val_main_v16_apply, val_main_v17_apply, val_main_v18_apply, val_main_cst_3_apply, val_main_v19_apply, val_main_v20_apply, val_main_v21_apply, val_main_cst_4_apply, val_main_v22_apply, val_main_v23_apply, val_main_v24_apply, val_main_cst_5_apply, val_main_v25_apply, val_main_v26_apply, val_main_v27_apply, val_main_v28_apply, val_main_v29_apply, val_main_v30_apply, val_main_v31_apply, val_main_v32_apply, val_main_v33_apply, val_main_v34_apply, val_main_v35_apply, val_main_cst_6_apply, val_main_v36_apply, val_main_v37_apply, val_main_v38_apply]
  simp only [neuron_boundary, neuron_cos_u, neuron_sin_u, drive_left, drive_right]
  rfl

/-- The reference's next imaginary part is `Gv`. -/
theorem imag_part (x2 x3 x4 : (⟨S4096x4096, .f32⟩ : BufTy).Contents (Elt Ideal)) (x6 x7 : (⟨S4096, .f32⟩ : BufTy).Contents (Elt Ideal)) :
    val_main_v46 (F := Ideal) x2 x3 x4 x6 x7 = Gv x6 x7 x4 x2 x3 := by
  funext i
  simp only [val_main_v0_apply, val_main_v1_apply, val_main_v2_apply, val_main_cst_apply, val_main_v3_apply, val_main_v4_apply, val_main_v5_apply, val_main_cst_0_apply, val_main_v6_apply, val_main_v7_apply, val_main_v8_apply, val_main_cst_1_apply, val_main_v9_apply, val_main_v10_apply, val_main_cst_2_apply, val_main_v11_apply, val_main_v12_apply, val_main_v13_apply, val_main_v14_apply, val_main_v15_apply, val_main_v16_apply, val_main_v17_apply, val_main_v18_apply, val_main_cst_3_apply, val_main_v19_apply, val_main_v20_apply, val_main_v21_apply, val_main_cst_4_apply, val_main_v22_apply, val_main_v23_apply, val_main_v24_apply, val_main_cst_5_apply, val_main_v25_apply, val_main_v26_apply, val_main_v27_apply, val_main_v28_apply, val_main_v29_apply, val_main_v30_apply, val_main_v31_apply, val_main_v32_apply, val_main_v33_apply, val_main_v34_apply, val_main_v35_apply, val_main_cst_6_apply, val_main_v36_apply, val_main_v37_apply, val_main_v38_apply, val_main_v39_apply, val_main_v40_apply, val_main_v41_apply, val_main_v42_apply, val_main_v43_apply, val_main_v44_apply, val_main_v45_apply, val_main_v46_apply]
  simp only [neuron_boundary, neuron_sin_v, neuron_cos_v]
  rfl

/-- The reference's next adaptation is `Gq`. -/
theorem adaptation (x1 x4 : (⟨S4096x4096, .f32⟩ : BufTy).Contents (Elt Ideal)) :
    val_main_v49 (F := Ideal) x1 x4 = Gq x4 x1 := by
  funext i
  simp only [val_main_v49_apply, val_main_v48_apply, val_main_v47_apply, val_main_cst_7_apply]
  rfl

/-- The reference's spikes are `Gz`. -/
theorem spikes (x0 : (⟨S4096x256, .f32⟩ : BufTy).Contents (Elt Ideal)) (x1 x2 x3 x4 : (⟨S4096x4096, .f32⟩ : BufTy).Contents (Elt Ideal)) (x5 : (⟨S4096x256, .f32⟩ : BufTy).Contents (Elt Ideal)) (x6 x7 : (⟨S4096, .f32⟩ : BufTy).Contents (Elt Ideal)) :
    val_main_v55 (F := Ideal) x0 x1 x2 x3 x4 x5 x6 x7 = Gz x0 x5 x6 x7 x4 x2 x3 x1 := by
  funext i
  simp only [val_main_v0_apply, val_main_v1_apply, val_main_v2_apply, val_main_cst_apply, val_main_v3_apply, val_main_v4_apply, val_main_v5_apply, val_main_cst_0_apply, val_main_v6_apply, val_main_v7_apply, val_main_v8_apply, val_main_cst_1_apply, val_main_v9_apply, val_main_v10_apply, val_main_cst_2_apply, val_main_v11_apply, val_main_v12_apply, val_main_v13_apply, val_main_v14_apply, val_main_v15_apply, val_main_v16_apply, val_main_v17_apply, val_main_v18_apply, val_main_cst_3_apply, val_main_v19_apply, val_main_v20_apply, val_main_v21_apply, val_main_cst_4_apply, val_main_v22_apply, val_main_v23_apply, val_main_v24_apply, val_main_cst_5_apply, val_main_v25_apply, val_main_v26_apply, val_main_v27_apply, val_main_v28_apply, val_main_v29_apply, val_main_v30_apply, val_main_v31_apply, val_main_v32_apply, val_main_v33_apply, val_main_v34_apply, val_main_v35_apply, val_main_cst_6_apply, val_main_v36_apply, val_main_v37_apply, val_main_v38_apply, val_main_v39_apply, val_main_v40_apply, val_main_v41_apply, val_main_v42_apply, val_main_v43_apply, val_main_v44_apply, val_main_v45_apply, val_main_v46_apply, val_main_cst_7_apply, val_main_v47_apply, val_main_v48_apply, val_main_v49_apply, val_main_cst_8_apply, val_main_v50_apply, val_main_v51_apply, val_main_v52_apply, val_main_cst_9_apply, val_main_v53_apply, val_main_v54_apply, val_main_v55_apply]
  simp only [neuron_boundary, neuron_cos_u, neuron_sin_u, drive_left, drive_right]
  rfl

end Cert.Brf.Ref

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KernelBlock.lean ====
/-
  What one grid point leaves in each of its four output blocks, entry by entry.

  At a grid point the body holds a [512, 256] block of `x` (rows of the batch), a [512, 256] block of `W` (rows are
  neurons), the [1, 512] blocks of the two per-neuron vectors, and the [512, 512] blocks of the four state arrays.
  Entry `(a, b)` of each output block depends on row `a` of the `x` block, row `b` of the `W` block, lane `b` of the
  per-neuron blocks and entry `(a, b)` of the state blocks, through the cell's update: the matrix unit's product
  of the `x` block with the transposed `W` block is the drive, a narrowing of format changes nothing, and the
  body's `boundary − 2·q` is the specification's `boundary − q − q`.
-/
import proofs.«164185_j2499670966836_1_alg».proof.Proof.Gen.KernelIdeal.Value
import proofs.«164185_j2499670966836_1_alg».proof.Proof.Spec
import proofs.«164185_j2499670966836_1_alg».proof.Proof.LibPlainDot

noncomputable section

namespace Cert.Brf.Block

open Idealize.ShloMosaic Idealize.ShloMosaic.ValueIdx Cert.KernelIdeal Cert.KernelIdeal.Gen Cert.KernelIdeal.Value Cert.Brf

/-- The zero offset of a whole-block access. -/
theorem origin : (![0, 0] : Fin 2 → Nat) = fun _ => 0 := funext fun a => by fin_cases a <;> rfl

/-- A [1, 512] index whose lane is `y`'s column is `(0, y 1)`. -/
theorem lane_eq (j : S1x512.Idx) (y : S512x512.Idx) (h : (j 1).val = (y 1).val) : j = ix2 (0 : Fin 1) (y 1) := by
  funext a
  match a with
  | ⟨0, _⟩ => exact Fin.ext (by have h0 : (j 0).val < 1 := (j 0).isLt; show (j 0).val = 0; omega)
  | ⟨1, _⟩ => exact Fin.ext h

/-- A [512, 512] index with `y`'s coordinates is `y`. -/
theorem same_eq (j y : S512x512.Idx) (h0 : (j 0).val = (y 0).val) (h1 : (j 1).val = (y 1).val) : j = y := by
  funext a
  match a with
  | ⟨0, _⟩ => exact Fin.ext h0
  | ⟨1, _⟩ => exact Fin.ext h1

/-- The splat of the word for 2, at any entry. -/
theorem two_apply (j : S512x512.Idx) : k0_pay11 (F := Ideal) j = two := rfl

/-- THE DRIVE OF A BLOCK: entry `(a, b)` of the product of the `x` block with the transposed `W` block is the sum over
    `k` of `x[a, k] · W[b, k]`. -/
theorem drive_apply (xb Wb : Vec Ideal S512x256 .f32) (a b : Fin 512) :
    k0_pay6 xb Wb (ix2 a b) = ∑ k : Fin 256, xb (ix2 a k) * Wb (ix2 b k) := by
  unfold k0_pay6
  refine (Cert.PlainDot.matmul_zero_apply dot_S512x256_S256x512_S512x512_1_0_0_1_n_n rfl none _ _ a b).trans ?_
  refine Finset.sum_congr rfl fun k _ => ?_
  rw [transpose_apply [1, 0] _ transposes_S512x256_p1_0_S256x512 (ix2 k b) (ix2 b k) (fun c => match c with
    | ⟨0, _⟩ => rfl
    | ⟨1, _⟩ => rfl)]
  rfl

/-- The next real part's block. -/
theorem real_block (xb Wb : Vec Ideal S512x256 .f32) (ob bb : Vec Ideal S1x512 .f32) (zb ub vb qb : Vec Ideal S512x512 .f32)
    (y : S512x512.Idx) :
    out0_9 xb Wb ob bb zb ub vb qb y
      = uNext (∑ k : Fin 256, xb (ix2 (y 0) k) * Wb (ix2 (y 1) k)) (ob (ix2 (0 : Fin 1) (y 1))) (bb (ix2 (0 : Fin 1) (y 1)))
          (qb y) (ub y) (vb y) := by
  unfold out0_9
  simp only [View.ld_unit_zero (S := S512x256) origin, View.ld_unit_zero (S := S1x512) origin,
    View.ld_unit_zero (S := S512x512) origin]
  rw [canon9_eq ob bb qb ub vb xb Wb y]
  simp only [E9]
  rw [lane_eq (ix9_0 y) y rfl, lane_eq (ix9_1 y) y rfl, lane_eq (ix9_2 y) y rfl, lane_eq (ix9_6 y) y rfl,
    lane_eq (ix9_8 y) y rfl, same_eq (ix9_3 y) y rfl rfl, same_eq (ix9_4 y) y rfl rfl, same_eq (ix9_5 y) y rfl rfl,
    same_eq (ix9_7 y) y rfl rfl, same_eq (ix9_9 y) y rfl rfl]
  have hd : k0_pay6 xb Wb y = ∑ k : Fin 256, xb (ix2 (y 0) k) * Wb (ix2 (y 1) k) := by
    exact (congrArg (k0_pay6 xb Wb) (eq_ix2 y)).trans (drive_apply xb Wb (y 0) (y 1))
  rw [two_apply, hd]
  unfold uNext damp boundary
  simp only [Ideal.addf_def, Ideal.subf_def, Ideal.mulf_def, Ideal.divf_def, Ideal.sqrt_def, Ideal.exp_def,
    Ideal.cos_def, Ideal.sin_def, Ideal.ofBits_def]
  rw [sub_two_mul]
  rfl

/-- The next imaginary part's block. -/
theorem imag_block (xb Wb : Vec Ideal S512x256 .f32) (ob bb : Vec Ideal S1x512 .f32) (zb ub vb qb : Vec Ideal S512x512 .f32)
    (y : S512x512.Idx) :
    out0_10 xb Wb ob bb zb ub vb qb y
      = vNext (ob (ix2 (0 : Fin 1) (y 1))) (bb (ix2 (0 : Fin 1) (y 1))) (qb y) (ub y) (vb y) := by
  unfold out0_10
  simp only [View.ld_unit_zero (S := S1x512) origin, View.ld_unit_zero (S := S512x512) origin]
  rw [canon10_eq ob bb qb ub vb y]
  simp only [E10]
  rw [lane_eq (ix10_0 y) y rfl, lane_eq (ix10_1 y) y rfl, lane_eq (ix10_2 y) y rfl, lane_eq (ix10_6 y) y rfl,
    lane_eq (ix10_8 y) y rfl, same_eq (ix10_3 y) y rfl rfl, same_eq (ix10_4 y) y rfl rfl, same_eq (ix10_5 y) y rfl rfl,
    same_eq (ix10_7 y) y rfl rfl]
  rw [two_apply]
  unfold vNext damp boundary
  simp only [Ideal.addf_def, Ideal.subf_def, Ideal.mulf_def, Ideal.divf_def, Ideal.sqrt_def, Ideal.exp_def,
    Ideal.cos_def, Ideal.sin_def, Ideal.ofBits_def]
  rw [sub_two_mul]
  rfl

/-- The next adaptation's block: the body's one pointwise store. -/
theorem adapt_block (xb Wb : Vec Ideal S512x256 .f32) (ob bb : Vec Ideal S1x512 .f32) (zb ub vb qb : Vec Ideal S512x512 .f32)
    (y : S512x512.Idx) :
    out0_11 xb Wb ob bb zb ub vb qb y = qNext (qb y) (zb y) := by
  unfold out0_11
  simp only [View.ld_unit_zero (S := S512x512) origin]
  rw [View.canon_unit_zero origin]
  rfl

/-- The spikes' block: the comparison bit widened to a word and read as a signed integer is the bit. -/
theorem spike_block (xb Wb : Vec Ideal S512x256 .f32) (ob bb : Vec Ideal S1x512 .f32) (zb ub vb qb : Vec Ideal S512x512 .f32)
    (y : S512x512.Idx) :
    out0_8 xb Wb ob bb zb ub vb qb y
      = spike (∑ k : Fin 256, xb (ix2 (y 0) k) * Wb (ix2 (y 1) k)) (ob (ix2 (0 : Fin 1) (y 1))) (bb (ix2 (0 : Fin 1) (y 1)))
          (qb y) (ub y) (vb y) (zb y) := by
  unfold out0_8
  simp only [View.ld_unit_zero (S := S512x256) origin, View.ld_unit_zero (S := S1x512) origin,
    View.ld_unit_zero (S := S512x512) origin]
  rw [canon8_eq ob bb qb ub vb xb Wb zb y]
  simp only [E8]
  rw [lane_eq (ix8_0 y) y rfl, lane_eq (ix8_1 y) y rfl, lane_eq (ix8_2 y) y rfl, lane_eq (ix8_6 y) y rfl,
    lane_eq (ix8_8 y) y rfl, same_eq (ix8_3 y) y rfl rfl, same_eq (ix8_4 y) y rfl rfl, same_eq (ix8_5 y) y rfl rfl,
    same_eq (ix8_7 y) y rfl rfl, same_eq (ix8_9 y) y rfl rfl, same_eq (ix8_10 y) y rfl rfl, same_eq (ix8_11 y) y rfl rfl]
  have hd : k0_pay6 xb Wb y = ∑ k : Fin 256, xb (ix2 (y 0) k) * Wb (ix2 (y 1) k) := by
    exact (congrArg (k0_pay6 xb Wb) (eq_ix2 y)).trans (drive_apply xb Wb (y 0) (y 1))
  rw [two_apply, hd, sitofp_widen_eq_uitofp]
  unfold spike uNext qNext damp boundary
  simp only [Ideal.addf_def, Ideal.subf_def, Ideal.mulf_def, Ideal.divf_def, Ideal.sqrt_def, Ideal.exp_def,
    Ideal.cos_def, Ideal.sin_def, Ideal.ofBits_def]
  rw [sub_two_mul]
  rfl

end Cert.Brf.Block

end
-- ==== Proof.KernelValue.lean ====
/-
  From blocks to arrays: what the four result arrays hold after the kernel's run.

  The grid has 8 × 8 points. Point `(a, b)` stages rows `512·a …` of `x`, rows `512·b …` of `W`, lanes `512·b …` of the
  two per-neuron vectors (reshaped to one row by the host before the call), and block `(a, b)` of each state array;
  it writes block `(a, b)` of each result. So entry `(r, s)` of a block is entry `(512·a + r, 512·b + s)` of the array,
  the block's `x` row is the array's row `512·a + r`, its `W` row the array's row `512·b + s`. The 64 blocks tile each
  result array, so each result array is the cell's update of the argument arrays, entry by entry.
-/
import proofs.«164185_j2499670966836_1_alg».proof.Proof.Gen.KernelIdeal.Value
import proofs.«164185_j2499670966836_1_alg».proof.Proof.KernelBlock
import Idealize.ShloMosaic.Lib.Pipeline.Value
import Idealize.ShloMosaic.Lib.StableHlo.Run

set_option maxRecDepth 16384

noncomputable section

namespace Cert.Brf.Kernel

open Cert.KernelIdeal Cert.KernelIdeal.Gen Idealize.ShloMosaic Idealize.ShloMosaic.TcCoe Idealize.SL.Sem
open Idealize.ShloMosaic.ValueIdx Cert.Brf Cert.Brf.Block
open Idealize.ShloMosaic.Pipeline (Dat)

variable (m : (ℓ : Loc nD τ sig) → Buf (Elt Ideal) ℓ) (ρ : Dev nD → PrngReg)

/-! ## The arrays as the region finds them, and the blocks a point stages -/

abbrev xA (c : Dev nD) : Vec Ideal S4096x256 .f32 := V m c main_arg0
abbrev wA (c : Dev nD) : Vec Ideal S4096x256 .f32 := V m c main_arg5
abbrev oRow (c : Dev nD) : Vec Ideal S1x4096 .f32 := V m c main_v0
abbrev bRow (c : Dev nD) : Vec Ideal S1x4096 .f32 := V m c main_v1
abbrev zA (c : Dev nD) : Vec Ideal S4096x4096 .f32 := V m c main_arg1
abbrev uA (c : Dev nD) : Vec Ideal S4096x4096 .f32 := V m c main_arg2
abbrev vA (c : Dev nD) : Vec Ideal S4096x4096 .f32 := V m c main_arg3
abbrev qA (c : Dev nD) : Vec Ideal S4096x4096 .f32 := V m c main_arg4
/-- The frequencies, neuron by neuron, read off the one-row array the host reshaped them into. -/
abbrev omA (c : Dev nD) : (⟨1, ![4096]⟩ : Shape).Idx → R := fun n => oRow m c (ix2 (0 : Fin 1) (n 0))
/-- The offsets, likewise. -/
abbrev boA (c : Dev nD) : (⟨1, ![4096]⟩ : Shape).Idx → R := fun n => bRow m c (ix2 (0 : Fin 1) (n 0))

abbrev xB (c : Dev nD) (t : Fin cfg0.N) : Vec Ideal S512x256 .f32 := iblk m c 0 t
abbrev wB (c : Dev nD) (t : Fin cfg0.N) : Vec Ideal S512x256 .f32 := iblk m c 1 t
abbrev oB (c : Dev nD) (t : Fin cfg0.N) : Vec Ideal S1x512 .f32 := iblk m c 2 t
abbrev bB (c : Dev nD) (t : Fin cfg0.N) : Vec Ideal S1x512 .f32 := iblk m c 3 t
abbrev zB (c : Dev nD) (t : Fin cfg0.N) : Vec Ideal S512x512 .f32 := iblk m c 4 t
abbrev uB (c : Dev nD) (t : Fin cfg0.N) : Vec Ideal S512x512 .f32 := iblk m c 5 t
abbrev vB (c : Dev nD) (t : Fin cfg0.N) : Vec Ideal S512x512 .f32 := iblk m c 6 t
abbrev qB (c : Dev nD) (t : Fin cfg0.N) : Vec Ideal S512x512 .f32 := iblk m c 7 t

/-! ## The index maps, decided over the 64 points -/

/-- Against the first result's block index `(a, b)`: `x` is at `(a, 0)`, `W` at `(b, 0)`, the per-neuron rows at `(0, b)`,
    the state arrays and the other results at `(a, b)`; and `a, b ≤ 7`. -/
theorem idx_facts : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = 0 ∧ win0_2.index t (1 : Fin 2) = win0_8.index t (1 : Fin 2)
    ∧ win0_3.index t (0 : Fin 2) = 0 ∧ win0_3.index t (1 : Fin 2) = win0_8.index t (1 : Fin 2)
    ∧ win0_4.index t (0 : Fin 2) = win0_8.index t (0 : Fin 2) ∧ win0_4.index t (1 : Fin 2) = win0_8.index t (1 : Fin 2)
    ∧ win0_5.index t (0 : Fin 2) = win0_8.index t (0 : Fin 2) ∧ win0_5.index t (1 : Fin 2) = win0_8.index t (1 : Fin 2)
    ∧ win0_6.index t (0 : Fin 2) = win0_8.index t (0 : Fin 2) ∧ win0_6.index t (1 : Fin 2) = win0_8.index t (1 : Fin 2)
    ∧ win0_7.index t (0 : Fin 2) = win0_8.index t (0 : Fin 2) ∧ win0_7.index t (1 : Fin 2) = win0_8.index t (1 : Fin 2)
    ∧ win0_9.index t = win0_8.index t ∧ win0_10.index t = win0_8.index t ∧ win0_11.index t = win0_8.index t
    ∧ win0_8.index t (0 : Fin 2) ≤ 7 ∧ win0_8.index t (1 : Fin 2) ≤ 7 :=
  (by decide +kernel : ∀ t : Fin grid0.N, _)

/-- Every block index `(a, b)` with `a, b < 8` is some point's. -/
theorem idx_onto : ∀ (a b : Fin 8), ∃ t : Fin cfg0.N, win0_8.index t (0 : Fin 2) = a.val ∧ win0_8.index t (1 : Fin 2) = b.val :=
  (by decide +kernel : ∀ (a b : Fin 8), ∃ t : Fin grid0.N, win0_8.index t (0 : Fin 2) = a.val ∧ win0_8.index t (1 : Fin 2) = b.val)

/-! ## Reading a staged block where the result's entry says

`j` is an entry of a result block at point `t` and `i` the array entry it lands on: `i = (512·a + j 0, 512·b + j 1)`. -/

theorem x_read (c : Dev nD) (t : Fin cfg0.N) (j : S512x512.Idx) (i : S4096x4096.Idx)
    (h0 : (i 0).val = win0_8.index t (0 : Fin 2) * 512 + (j 0).val) (k : Fin 256) :
    xB m c t (ix2 (j 0) k) = xA m c (ix2 (i 0) k) := by
  obtain ⟨e0, e1, -⟩ := idx_facts t
  show V m c main_arg0 (((cfg0.win 0).blk t).view.emb (ix2 (j 0) k)) = V m c main_arg0 (ix2 (i 0) k)
  refine congrArg (V m c main_arg0) (funext fun d => Fin.ext ?_)
  match d with
  | ⟨0, _⟩ => show win0_0.index t (0 : Fin 2) * 512 + 1 * (j 0).val = (i 0).val; omega
  | ⟨1, _⟩ => show win0_0.index t (1 : Fin 2) * 256 + 1 * k.val = k.val; omega

theorem w_read (c : Dev nD) (t : Fin cfg0.N) (j : S512x512.Idx) (i : S4096x4096.Idx)
    (h1 : (i 1).val = win0_8.index t (1 : Fin 2) * 512 + (j 1).val) (k : Fin 256) :
    wB m c t (ix2 (j 1) k) = wA m c (ix2 (i 1) k) := by
  obtain ⟨-, -, e0, e1, -⟩ := idx_facts t
  show V m c main_arg5 (((cfg0.win 1).blk t).view.emb (ix2 (j 1) k)) = V m c main_arg5 (ix2 (i 1) k)
  refine congrArg (V m c main_arg5) (funext fun d => Fin.ext ?_)
  match d with
  | ⟨0, _⟩ => show win0_1.index t (0 : Fin 2) * 512 + 1 * (j 1).val = (i 1).val; omega
  | ⟨1, _⟩ => show win0_1.index t (1 : Fin 2) * 256 + 1 * k.val = k.val; omega

theorem o_read (c : Dev nD) (t : Fin cfg0.N) (j : S512x512.Idx) (i : S4096x4096.Idx)
    (h1 : (i 1).val = win0_8.index t (1 : Fin 2) * 512 + (j 1).val) :
    oB m c t (ix2 (0 : Fin 1) (j 1)) = oRow m c (ix2 (0 : Fin 1) (i 1)) := by
  obtain ⟨-, -, -, -, e0, e1, -⟩ := idx_facts t
  show V m c main_v0 (((cfg0.win 2).blk t).view.emb (ix2 (0 : Fin 1) (j 1))) = V m c main_v0 (ix2 (0 : Fin 1) (i 1))
  refine congrArg (V m c main_v0) (funext fun d => Fin.ext ?_)
  match d with
  | ⟨0, _⟩ => show win0_2.index t (0 : Fin 2) * 1 + 1 * 0 = 0; omega
  | ⟨1, _⟩ => show win0_2.index t (1 : Fin 2) * 512 + 1 * (j 1).val = (i 1).val; omega

theorem b_read (c : Dev nD) (t : Fin cfg0.N) (j : S512x512.Idx) (i : S4096x4096.Idx)
    (h1 : (i 1).val = win0_8.index t (1 : Fin 2) * 512 + (j 1).val) :
    bB m c t (ix2 (0 : Fin 1) (j 1)) = bRow m c (ix2 (0 : Fin 1) (i 1)) := by
  obtain ⟨-, -, -, -, -, -, e0, e1, -⟩ := idx_facts t
  show V m c main_v1 (((cfg0.win 3).blk t).view.emb (ix2 (0 : Fin 1) (j 1))) = V m c main_v1 (ix2 (0 : Fin 1) (i 1))
  refine congrArg (V m c main_v1) (funext fun d => Fin.ext ?_)
  match d with
  | ⟨0, _⟩ => show win0_3.index t (0 : Fin 2) * 1 + 1 * 0 = 0; omega
  | ⟨1, _⟩ => show win0_3.index t (1 : Fin 2) * 512 + 1 * (j 1).val = (i 1).val; omega

theorem z_read (c : Dev nD) (t : Fin cfg0.N) (j : S512x512.Idx) (i : S4096x4096.Idx)
    (h0 : (i 0).val = win0_8.index t (0 : Fin 2) * 512 + (j 0).val)
    (h1 : (i 1).val = win0_8.index t (1 : Fin 2) * 512 + (j 1).val) :
    zB m c t j = zA m c i := by
  obtain ⟨-, -, -, -, -, -, -, -, e0, e1, -⟩ := idx_facts t
  show V m c main_arg1 (((cfg0.win 4).blk t).view.emb j) = V m c main_arg1 i
  refine congrArg (V m c main_arg1) (funext fun d => Fin.ext ?_)
  match d with
  | ⟨0, _⟩ => show win0_4.index t (0 : Fin 2) * 512 + 1 * (j 0).val = (i 0).val; omega
  | ⟨1, _⟩ => show win0_4.index t (1 : Fin 2) * 512 + 1 * (j 1).val = (i 1).val; omega

theorem u_read (c : Dev nD) (t : Fin cfg0.N) (j : S512x512.Idx) (i : S4096x4096.Idx)
    (h0 : (i 0).val = win0_8.index t (0 : Fin 2) * 512 + (j 0).val)
    (h1 : (i 1).val = win0_8.index t (1 : Fin 2) * 512 + (j 1).val) :
    uB m c t j = uA m c i := by
  obtain ⟨-, -, -, -, -, -, -, -, -, -, e0, e1, -⟩ := idx_facts t
  show V m c main_arg2 (((cfg0.win 5).blk t).view.emb j) = V m c main_arg2 i
  refine congrArg (V m c main_arg2) (funext fun d => Fin.ext ?_)
  match d with
  | ⟨0, _⟩ => show win0_5.index t (0 : Fin 2) * 512 + 1 * (j 0).val = (i 0).val; omega
  | ⟨1, _⟩ => show win0_5.index t (1 : Fin 2) * 512 + 1 * (j 1).val = (i 1).val; omega

theorem v_read (c : Dev nD) (t : Fin cfg0.N) (j : S512x512.Idx) (i : S4096x4096.Idx)
    (h0 : (i 0).val = win0_8.index t (0 : Fin 2) * 512 + (j 0).val)
    (h1 : (i 1).val = win0_8.index t (1 : Fin 2) * 512 + (j 1).val) :
    vB m c t j = vA m c i := by
  obtain ⟨-, -, -, -, -, -, -, -, -, -, -, -, e0, e1, -⟩ := idx_facts t
  show V m c main_arg3 (((cfg0.win 6).blk t).view.emb j) = V m c main_arg3 i
  refine congrArg (V m c main_arg3) (funext fun d => Fin.ext ?_)
  match d with
  | ⟨0, _⟩ => show win0_6.index t (0 : Fin 2) * 512 + 1 * (j 0).val = (i 0).val; omega
  | ⟨1, _⟩ => show win0_6.index t (1 : Fin 2) * 512 + 1 * (j 1).val = (i 1).val; omega

theorem q_read (c : Dev nD) (t : Fin cfg0.N) (j : S512x512.Idx) (i : S4096x4096.Idx)
    (h0 : (i 0).val = win0_8.index t (0 : Fin 2) * 512 + (j 0).val)
    (h1 : (i 1).val = win0_8.index t (1 : Fin 2) * 512 + (j 1).val) :
    qB m c t j = qA m c i := by
  obtain ⟨-, -, -, -, -, -, -, -, -, -, -, -, -, -, e0, e1, -⟩ := idx_facts t
  show V m c main_arg4 (((cfg0.win 7).blk t).view.emb j) = V m c main_arg4 i
  refine congrArg (V m c main_arg4) (funext fun d => Fin.ext ?_)
  match d with
  | ⟨0, _⟩ => show win0_7.index t (0 : Fin 2) * 512 + 1 * (j 0).val = (i 0).val; omega
  | ⟨1, _⟩ => show win0_7.index t (1 : Fin 2) * 512 + 1 * (j 1).val = (i 1).val; omega

/-! ## Output window 8: the spikes -/

/-- WHAT POINT `t` WRITES BACK is block `t` of the spikes of the arrays as the region finds them. -/
theorem flushed8_eq (c : Dev nD) (t : Fin cfg0.N) :
    (dats m 0 c).flushed 8 t = ((cfg0.win 8).blk t).view.read (Elt Ideal) (Gz (xA m c) (wA m c) (omA m c) (boA m c) (qA m c) (uA m c) (vA m c) (zA m c)) := by
  rw [Value.flushed8]
  funext j
  have h0 : ((((cfg0.win 8).blk t).view.emb j) 0).val = win0_8.index t (0 : Fin 2) * 512 + (j 0).val := by
    show win0_8.index t (0 : Fin 2) * 512 + 1 * (j 0).val = _
    omega
  have h1 : ((((cfg0.win 8).blk t).view.emb j) 1).val = win0_8.index t (1 : Fin 2) * 512 + (j 1).val := by
    show win0_8.index t (1 : Fin 2) * 512 + 1 * (j 1).val = _
    omega
  show out0_8 (xB m c t) (wB m c t) (oB m c t) (bB m c t) (zB m c t) (uB m c t) (vB m c t) (qB m c t) j
    = (Gz (xA m c) (wA m c) (omA m c) (boA m c) (qA m c) (uA m c) (vA m c) (zA m c)) (((cfg0.win 8).blk t).view.emb j)
  refine (spike_block (xB m c t) (wB m c t) (oB m c t) (bB m c t) (zB m c t) (uB m c t) (vB m c t) (qB m c t) j).trans ?_
  rw [o_read m c t j _ h1, b_read m c t j _ h1, q_read m c t j _ h0 h1, u_read m c t j _ h0 h1, v_read m c t j _ h0 h1,
    z_read m c t j _ h0 h1]
  simp only [x_read m c t j _ h0, w_read m c t j _ h1]
  rfl

/-- An entry of the array is in point `t`'s block iff each coordinate is in the block's range on its axis. -/
theorem mem_blk8 (t : Fin cfg0.N) (i : S4096x4096.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v2_0).slice (win0_8.rect t)).set ↔ _
  rw [View.set_slice_whole, Rect.mem_set_unit]
  exact Iff.rfl

/-- Entry `(p, n)` lies in the block of the point that handles batch rows `512·⌊p/512⌋ …` and neurons `512·⌊n/512⌋ …`. -/
theorem cover8 (i : S4096x4096.Idx) :
    ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    have q0' : win0_8.index t (0 : Fin 2) = (i 0).val / 512 := q0
    omega
  | ⟨1, _⟩ =>
    show win0_8.index t (1 : Fin 2) * 512 ≤ (i 1).val ∧ (i 1).val < win0_8.index t (1 : Fin 2) * 512 + 512
    have q1' : win0_8.index t (1 : Fin 2) = (i 1).val / 512 := q1
    omega

/-- The spikes' array after the run. -/
theorem final8 (c : Dev nD) :
    (dats m 0 c).arrAt 8 cfg0.N = Gz (xA m c) (wA m c) (omA m c) (boA m c) (qA m c) (uA m c) (vA m c) (zA m c) :=
  (dats m 0 c).arrAt_eq_of_cover 8 (Gz (xA m c) (wA m c) (omA m c) (boA m c) (qA m c) (uA m c) (vA m c) (zA m c))
    (fun t _ => flushed8_eq m c t) cover8

/-! ## Output window 9: the next real part

Its blocks sit where the spikes' do (the two index maps agree at every point), so the same steps serve. -/

theorem flushed9_eq (c : Dev nD) (t : Fin cfg0.N) :
    (dats m 0 c).flushed 9 t = ((cfg0.win 9).blk t).view.read (Elt Ideal) (Gu (xA m c) (wA m c) (omA m c) (boA m c) (qA m c) (uA m c) (vA m c)) := by
  rw [Value.flushed9]
  funext j
  obtain ⟨-, -, -, -, -, -, -, -, -, -, -, -, -, -, -, -, e9, -⟩ := idx_facts t
  have h0 : ((((cfg0.win 9).blk t).view.emb j) 0).val = win0_8.index t (0 : Fin 2) * 512 + (j 0).val := by
    show win0_9.index t (0 : Fin 2) * 512 + 1 * (j 0).val = _
    have := congrFun e9 0; omega
  have h1 : ((((cfg0.win 9).blk t).view.emb j) 1).val = win0_8.index t (1 : Fin 2) * 512 + (j 1).val := by
    show win0_9.index t (1 : Fin 2) * 512 + 1 * (j 1).val = _
    have := congrFun e9 1; omega
  show out0_9 (xB m c t) (wB m c t) (oB m c t) (bB m c t) (zB m c t) (uB m c t) (vB m c t) (qB m c t) j
    = (Gu (xA m c) (wA m c) (omA m c) (boA m c) (qA m c) (uA m c) (vA m c)) (((cfg0.win 9).blk t).view.emb j)
  refine (real_block (xB m c t) (wB m c t) (oB m c t) (bB m c t) (zB m c t) (uB m c t) (vB m c t) (qB m c t) j).trans ?_
  rw [o_read m c t j _ h1, b_read m c t j _ h1, q_read m c t j _ h0 h1, u_read m c t j _ h0 h1, v_read m c t j _ h0 h1]
  simp only [x_read m c t j _ h0, w_read m c t j _ h1]
  rfl

theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v2_1).slice (win0_9.rect t)).set ↔ _
  rw [View.set_slice_whole, Rect.mem_set_unit]
  exact Iff.rfl

theorem cover9 (i : S4096x4096.Idx) :
    ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  obtain ⟨-, -, -, -, -, -, -, -, -, -, -, -, -, -, -, -, e9, -⟩ := idx_facts t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    have := congrFun e9 0
    have q0' : win0_8.index t (0 : Fin 2) = (i 0).val / 512 := q0
    omega
  | ⟨1, _⟩ =>
    show win0_9.index t (1 : Fin 2) * 512 ≤ (i 1).val ∧ (i 1).val < win0_9.index t (1 : Fin 2) * 512 + 512
    have := congrFun e9 1
    have q1' : win0_8.index t (1 : Fin 2) = (i 1).val / 512 := q1
    omega

/-- The next real part's array after the run. -/
theorem final9 (c : Dev nD) :
    (dats m 0 c).arrAt 9 cfg0.N = Gu (xA m c) (wA m c) (omA m c) (boA m c) (qA m c) (uA m c) (vA m c) :=
  (dats m 0 c).arrAt_eq_of_cover 9 (Gu (xA m c) (wA m c) (omA m c) (boA m c) (qA m c) (uA m c) (vA m c))
    (fun t _ => flushed9_eq m c t) cover9

/-! ## Output window 10: the next imaginary part -/

theorem flushed10_eq (c : Dev nD) (t : Fin cfg0.N) :
    (dats m 0 c).flushed 10 t = ((cfg0.win 10).blk t).view.read (Elt Ideal) (Gv (omA m c) (boA m c) (qA m c) (uA m c) (vA m c)) := by
  rw [Value.flushed10]
  funext j
  obtain ⟨-, -, -, -, -, -, -, -, -, -, -, -, -, -, -, -, -, e10, -⟩ := idx_facts t
  have h0 : ((((cfg0.win 10).blk t).view.emb j) 0).val = win0_8.index t (0 : Fin 2) * 512 + (j 0).val := by
    show win0_10.index t (0 : Fin 2) * 512 + 1 * (j 0).val = _
    have := congrFun e10 0; omega
  have h1 : ((((cfg0.win 10).blk t).view.emb j) 1).val = win0_8.index t (1 : Fin 2) * 512 + (j 1).val := by
    show win0_10.index t (1 : Fin 2) * 512 + 1 * (j 1).val = _
    have := congrFun e10 1; omega
  show out0_10 (xB m c t) (wB m c t) (oB m c t) (bB m c t) (zB m c t) (uB m c t) (vB m c t) (qB m c t) j
    = (Gv (omA m c) (boA m c) (qA m c) (uA m c) (vA m c)) (((cfg0.win 10).blk t).view.emb j)
  refine (imag_block (xB m c t) (wB m c t) (oB m c t) (bB m c t) (zB m c t) (uB m c t) (vB m c t) (qB m c t) j).trans ?_
  rw [o_read m c t j _ h1, b_read m c t j _ h1, q_read m c t j _ h0 h1, u_read m c t j _ h0 h1, v_read m c t j _ h0 h1]
  rfl

theorem mem_blk10 (t : Fin cfg0.N) (i : S4096x4096.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v2_2).slice (win0_10.rect t)).set ↔ _
  rw [View.set_slice_whole, Rect.mem_set_unit]
  exact Iff.rfl

theorem cover10 (i : S4096x4096.Idx) :
    ∃ t : Fin cfg0.N, (cfg0.win 10).flush t = true ∧ i ∈ ((cfg0.win 10).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  obtain ⟨-, -, -, -, -, -, -, -, -, -, -, -, -, -, -, -, -, e10, -⟩ := idx_facts t
  refine ⟨t, flush0_10 t, ?_⟩
  rw [mem_blk10]
  intro a
  match a with
  | ⟨0, _⟩ =>
    show win0_10.index t (0 : Fin 2) * 512 ≤ (i 0).val ∧ (i 0).val < win0_10.index t (0 : Fin 2) * 512 + 512
    have := congrFun e10 0
    have q0' : win0_8.index t (0 : Fin 2) = (i 0).val / 512 := q0
    omega
  | ⟨1, _⟩ =>
    show win0_10.index t (1 : Fin 2) * 512 ≤ (i 1).val ∧ (i 1).val < win0_10.index t (1 : Fin 2) * 512 + 512
    have := congrFun e10 1
    have q1' : win0_8.index t (1 : Fin 2) = (i 1).val / 512 := q1
    omega

/-- The next imaginary part's array after the run. -/
theorem final10 (c : Dev nD) :
    (dats m 0 c).arrAt 10 cfg0.N = Gv (omA m c) (boA m c) (qA m c) (uA m c) (vA m c) :=
  (dats m 0 c).arrAt_eq_of_cover 10 (Gv (omA m c) (boA m c) (qA m c) (uA m c) (vA m c))
    (fun t _ => flushed10_eq m c t) cover10

/-! ## Output window 11: the next adaptation -/

theorem flushed11_eq (c : Dev nD) (t : Fin cfg0.N) :
    (dats m 0 c).flushed 11 t = ((cfg0.win 11).blk t).view.read (Elt Ideal) (Gq (qA m c) (zA m c)) := by
  rw [Value.flushed11]
  funext j
  obtain ⟨-, -, -, -, -, -, -, -, -, -, -, -, -, -, -, -, -, -, e11, -⟩ := idx_facts t
  have h0 : ((((cfg0.win 11).blk t).view.emb j) 0).val = win0_8.index t (0 : Fin 2) * 512 + (j 0).val := by
    show win0_11.index t (0 : Fin 2) * 512 + 1 * (j 0).val = _
    have := congrFun e11 0; omega
  have h1 : ((((cfg0.win 11).blk t).view.emb j) 1).val = win0_8.index t (1 : Fin 2) * 512 + (j 1).val := by
    show win0_11.index t (1 : Fin 2) * 512 + 1 * (j 1).val = _
    have := congrFun e11 1; omega
  show out0_11 (xB m c t) (wB m c t) (oB m c t) (bB m c t) (zB m c t) (uB m c t) (vB m c t) (qB m c t) j
    = (Gq (qA m c) (zA m c)) (((cfg0.win 11).blk t).view.emb j)
  refine (adapt_block (xB m c t) (wB m c t) (oB m c t) (bB m c t) (zB m c t) (uB m c t) (vB m c t) (qB m c t) j).trans ?_
  rw [q_read m c t j _ h0 h1, z_read m c t j _ h0 h1]
  rfl

theorem mem_blk11 (t : Fin cfg0.N) (i : S4096x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v2_3).slice (win0_11.rect t)).set ↔ _
  rw [View.set_slice_whole, Rect.mem_set_unit]
  exact Iff.rfl

theorem cover11 (i : S4096x4096.Idx) :
    ∃ t : Fin cfg0.N, (cfg0.win 11).flush t = true ∧ i ∈ ((cfg0.win 11).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  obtain ⟨-, -, -, -, -, -, -, -, -, -, -, -, -, -, -, -, -, -, e11, -⟩ := idx_facts t
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512
    have := congrFun e11 0
    have q0' : win0_8.index t (0 : Fin 2) = (i 0).val / 512 := q0
    omega
  | ⟨1, _⟩ =>
    show win0_11.index t (1 : Fin 2) * 512 ≤ (i 1).val ∧ (i 1).val < win0_11.index t (1 : Fin 2) * 512 + 512
    have := congrFun e11 1
    have q1' : win0_8.index t (1 : Fin 2) = (i 1).val / 512 := q1
    omega

/-- The next adaptation's array after the run. -/
theorem final11 (c : Dev nD) : (dats m 0 c).arrAt 11 cfg0.N = Gq (qA m c) (zA m c) :=
  (dats m 0 c).arrAt_eq_of_cover 11 (Gq (qA m c) (zA m c)) (fun t _ => flushed11_eq m c t) cover11

/-! ## The arrays the region finds are the arguments -/

/-- The host's reshape of the frequencies to one row, read at lane `n`, is the frequency of neuron `n`. -/
theorem omA_eq (c : Dev nD) : omA m c = m ((c : Thread nD τ).loc main_arg6) := by
  have e : (V m c main_v0 : S1x4096.Idx → R) = shapeCast S1x4096 (m ((c : Thread nD τ).loc main_arg6)) shapeCasts_S4096_S1x4096 := by
    dsimp only [Gen.V, Gen.hostOps0]; after_results; rfl
  funext n
  show V m c main_v0 (ix2 (0 : Fin 1) (n 0)) = _
  rw [e]
  refine shapeCast_apply _ shapeCasts_S4096_S1x4096 (ix2 (0 : Fin 1) (n 0)) n ?_
  rw [Shape.rowMajor_val_one, Shape.rowMajor_val_two]
  show (n 0).val = 0 * 4096 + (n 0).val
  omega

/-- The offsets, likewise. -/
theorem boA_eq (c : Dev nD) : boA m c = m ((c : Thread nD τ).loc main_arg7) := by
  have e : (V m c main_v1 : S1x4096.Idx → R) = shapeCast S1x4096 (m ((c : Thread nD τ).loc main_arg7)) shapeCasts_S4096_S1x4096 := by
    dsimp only [Gen.V, Gen.hostOps0]; after_results; rfl
  funext n
  show V m c main_v1 (ix2 (0 : Fin 1) (n 0)) = _
  rw [e]
  refine shapeCast_apply _ shapeCasts_S4096_S1x4096 (ix2 (0 : Fin 1) (n 0)) n ?_
  rw [Shape.rowMajor_val_one, Shape.rowMajor_val_two]
  show (n 0).val = 0 * 4096 + (n 0).val
  omega

theorem xA_eq (c : Dev nD) : xA m c = m ((c : Thread nD τ).loc main_arg0) := V_main_arg0 m c
theorem wA_eq (c : Dev nD) : wA m c = m ((c : Thread nD τ).loc main_arg5) := V_main_arg5 m c
theorem zA_eq (c : Dev nD) : zA m c = m ((c : Thread nD τ).loc main_arg1) := V_main_arg1 m c
theorem uA_eq (c : Dev nD) : uA m c = m ((c : Thread nD τ).loc main_arg2) := V_main_arg2 m c
theorem vA_eq (c : Dev nD) : vA m c = m ((c : Thread nD τ).loc main_arg3) := V_main_arg3 m c
theorem qA_eq (c : Dev nD) : qA m c = m ((c : Thread nD τ).loc main_arg4) := V_main_arg4 m c

/-! ## The run -/

/-- Every weakly fair execution of the kernel's program ends with the four results at the cell's update of the
    arguments, entry by entry, and the arguments unchanged. -/
theorem run : θ_run defs (onTc (τ := τ) (main (F := Ideal))) ⟨m, fun _ => 0, ρ⟩ fun r => ∀ c : Dev nD,
      r.2.mem ((c : Thread nD τ).loc main_v2_0) = Gz (m ((c : Thread nD τ).loc main_arg0)) (m ((c : Thread nD τ).loc main_arg5)) (m ((c : Thread nD τ).loc main_arg6)) (m ((c : Thread nD τ).loc main_arg7)) (m ((c : Thread nD τ).loc main_arg4)) (m ((c : Thread nD τ).loc main_arg2)) (m ((c : Thread nD τ).loc main_arg3)) (m ((c : Thread nD τ).loc main_arg1))
      ∧ r.2.mem ((c : Thread nD τ).loc main_v2_1) = Gu (m ((c : Thread nD τ).loc main_arg0)) (m ((c : Thread nD τ).loc main_arg5)) (m ((c : Thread nD τ).loc main_arg6)) (m ((c : Thread nD τ).loc main_arg7)) (m ((c : Thread nD τ).loc main_arg4)) (m ((c : Thread nD τ).loc main_arg2)) (m ((c : Thread nD τ).loc main_arg3))
      ∧ r.2.mem ((c : Thread nD τ).loc main_v2_2) = Gv (m ((c : Thread nD τ).loc main_arg6)) (m ((c : Thread nD τ).loc main_arg7)) (m ((c : Thread nD τ).loc main_arg4)) (m ((c : Thread nD τ).loc main_arg2)) (m ((c : Thread nD τ).loc main_arg3))
      ∧ r.2.mem ((c : Thread nD τ).loc main_v2_3) = Gq (m ((c : Thread nD τ).loc main_arg4)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨r0, r1, r2, r3, kept⟩ := h c
    refine ⟨?_, ?_, ?_, ?_, kept⟩
    · rw [r0, final8, xA_eq, wA_eq, omA_eq, boA_eq, qA_eq, uA_eq, vA_eq, zA_eq]
    · rw [r1, final9, xA_eq, wA_eq, omA_eq, boA_eq, qA_eq, uA_eq, vA_eq]
    · rw [r2, final10, omA_eq, boA_eq, qA_eq, uA_eq, vA_eq]
    · rw [r3, final11, qA_eq, zA_eq])
    (Value.run_blocks m ρ)

end Cert.Brf.Kernel

end
-- ==== Proof.lean ====
/-
  A resonate-and-fire cell's forward update, tiled, against the same update written with whole arrays.

  For a batch of 4096 inputs `x[p, ·] ∈ ℝ²⁵⁶` and 4096 neurons with weights `W[n, ·]`, frequencies `ω_n = |omega[n]|`
  and offsets `β_n = |b_offset[n]|`, and the state `z, u, v, q` at `(p, n)`, both programs compute

    u' = e^{(B_n − 2q)δ} (u cos ω_n δ − v sin ω_n δ) + δ ∑ₖ x[p,k] W[n,k],     B_n = (−1 + √(1 − (δ ω_n)²)) / δ − β_n,
    v' = e^{(B_n − 2q)δ} (u sin ω_n δ + v cos ω_n δ),     q' = γ q + z,     z' = [u' − 1 − q' > 0].

  The kernel does it on an 8 × 8 grid of [512, 512] blocks, with the product on the matrix unit after narrowing both
  operands (no change of value on the extended reals) and the adaptation subtracted as `2·q`; the reference on whole
  arrays, subtracting `q` twice and converting the comparison bit directly. On the extended reals the two agree
  entry by entry, with no assumption on the inputs: `a − 2q = a − q − q` holds at the infinities too, a one-bit word
  widened and read as signed is the bit, and the 64 blocks tile each result.
-/
import proofs.«164185_j2499670966836_1_alg».proof.Defs
import proofs.«164185_j2499670966836_1_alg».proof.Proof.Gen.Kernel
import proofs.«164185_j2499670966836_1_alg».proof.Proof.Gen.Kernel.Skeleton
import proofs.«164185_j2499670966836_1_alg».proof.Proof.Gen.Kernel.Launch
import proofs.«164185_j2499670966836_1_alg».proof.Proof.Gen.Kernel.Points
import proofs.«164185_j2499670966836_1_alg».proof.Proof.Gen.Kernel.Frame
import proofs.«164185_j2499670966836_1_alg».proof.Proof.Gen.KernelIdeal
import proofs.«164185_j2499670966836_1_alg».proof.Proof.Gen.KernelIdeal.Skeleton
import proofs.«164185_j2499670966836_1_alg».proof.Proof.Gen.KernelIdeal.Launch
import proofs.«164185_j2499670966836_1_alg».proof.Proof.Gen.KernelIdeal.Points
import proofs.«164185_j2499670966836_1_alg».proof.Proof.Gen.KernelIdeal.Frame
import proofs.«164185_j2499670966836_1_alg».proof.Proof.Gen.ReferenceIdeal
import proofs.«164185_j2499670966836_1_alg».proof.Proof.Gen.Pre_finite_inputs
import proofs.«164185_j2499670966836_1_alg».proof.Proof.Gen.KernelIdeal.Value
import proofs.«164185_j2499670966836_1_alg».proof.Proof.Gen.ReferenceIdeal.Run
import proofs.«164185_j2499670966836_1_alg».proof.Proof.Gen.ReferenceIdeal.Read
import proofs.«164185_j2499670966836_1_alg».proof.Proof.RefValue
import proofs.«164185_j2499670966836_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: it runs, and none of them writes an argument. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The kernel's idealization rewrote no operation. -/
theorem preserves : Cert.preserves_Kernel_KernelIdeal := trivial

/-- From memories that agree on the arguments, the kernel's four result arrays and the reference's are the same
    functions of the arguments: the spikes, the next real part, the next imaginary part and the next adaptation. -/
theorem algebraic : Cert.algebraic_KernelIdeal_ReferenceIdeal := by
  intro m ρ m' ρ' _ hagree
  refine ⟨_, _, _, _, Cert.Brf.Kernel.run m ρ, ?_⟩
  refine (θ_run Cert.ReferenceIdeal.defs _ _).mono (fun _ h c => ?_) (Cert.ReferenceIdeal.Value.run (F := Ideal) m' ρ')
  obtain ⟨r0, r1, r2, r3, kept⟩ := h c
  obtain ⟨a0, a1, a2, a3, a4, a5, a6, a7⟩ := hagree c
  refine ⟨?_, ?_, ?_, ?_, kept⟩
  · rw [r0, Cert.ReferenceIdeal.Read.val_main_v55_eq, Cert.Brf.Ref.spikes, a0, a1, a2, a3, a4, a5, a6, a7]
  · rw [r1, Cert.ReferenceIdeal.Read.val_main_v38_eq, Cert.Brf.Ref.real_part, a0, a2, a3, a4, a5, a6, a7]
  · rw [r2, Cert.ReferenceIdeal.Read.val_main_v46_eq, Cert.Brf.Ref.imag_part, a2, a3, a4, a6, a7]
  · rw [r3, Cert.ReferenceIdeal.Read.val_main_v49_eq, Cert.Brf.Ref.adaptation, a1, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
